-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x512 : Shape := ⟨3, ![64, 256, 512]⟩
abbrev S64x64x512 : Shape := ⟨3, ![64, 64, 512]⟩
abbrev S200x512 : Shape := ⟨2, ![200, 512]⟩
abbrev S200 : Shape := ⟨1, ![200]⟩
abbrev S_ : Shape := ⟨0, ![]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel
  bcast_S_S64x64x512 : S_.BroadcastsInDim S64x64x512 (![] : Fin 0 → Fin S64x64x512.rank)
  reducesTo_S64x64x512_S_d0_1_2 : S64x64x512.ReducesTo [0, 1, 2] S_
  bcast_S_S200x512 : S_.BroadcastsInDim S200x512 (![] : Fin 0 → Fin S200x512.rank)
  reducesTo_S200x512_S_d0_1 : S200x512.ReducesTo [0, 1] S_
  bcast_S_S200 : S_.BroadcastsInDim S200 (![] : Fin 0 → Fin S200.rank)
  reducesTo_S200_S_d0 : S200.ReducesTo [0] S_

variable [Facts]

def fn_part1 {F : FTy → Type} [FloatOps F] (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  main_v18

def fn {F : FTy → Type} [FloatOps F] (main_arg0 : FVec F S64x256x512 .f32) (main_arg1 : FVec F S64x64x512 .f32) (main_arg2 : FVec F S200x512 .f32) (main_arg3 : FVec F S200 .f32) : IVec S_ 1 :=
  let main_v0 : FVec F S64x256x512 .f32 := Host.absf main_arg0
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  let main_v4 : FVec F S64x64x512 .f32 := Host.absf main_arg1
  let main_cst_0 : FVec F S_ .f32 := constant S_ .f32 0x7F800000#32
  let main_v5 : FVec F S64x64x512 .f32 := broadcastInDim S64x64x512 ![] bcast_S_S64x64x512 main_cst_0
  let main_v6 : IVec S64x64x512 1 := cmpf .olt main_v4 main_v5
  let main_c_1 : IVec S_ 1 := constantI S_ 1 1#1
  let main_v7 : IVec S_ 1 := (fun x v => Host.reduce IntOp.andi x v reducesTo_S64x64x512_S_d0_1_2 h_S_) main_v6 main_c_1
  let main_v8 : IVec S_ 1 := andi main_v3 main_v7
  let main_v9 : FVec F S200x512 .f32 := Host.absf main_arg2
  let main_cst_2 : FVec F S_ .f32 := constant S_ .f32 0x7F800000#32
  let main_v10 : FVec F S200x512 .f32 := broadcastInDim S200x512 ![] bcast_S_S200x512 main_cst_2
  let main_v11 : IVec S200x512 1 := cmpf .olt main_v9 main_v10
  let main_c_3 : IVec S_ 1 := constantI S_ 1 1#1
  let main_v12 : IVec S_ 1 := (fun x v => Host.reduce IntOp.andi x v reducesTo_S200x512_S_d0_1 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_v13 main_v16
-- ==== Kernel.lean ====
abbrev S64x256x512 : Shape := ⟨3, ![64, 256, 512]⟩
abbrev S64x64x512 : Shape := ⟨3, ![64, 64, 512]⟩
abbrev S200x512 : Shape := ⟨2, ![200, 512]⟩
abbrev S200 : Shape := ⟨1, ![200]⟩
abbrev S16384x512 : Shape := ⟨2, ![16384, 512]⟩
abbrev S4096x512 : Shape := ⟨2, ![4096, 512]⟩
abbrev S512x200 : Shape := ⟨2, ![512, 200]⟩
abbrev S1x200 : Shape := ⟨2, ![1, 200]⟩
abbrev S16384x200 : Shape := ⟨2, ![16384, 200]⟩
abbrev S2048x512 : Shape := ⟨2, ![2048, 512]⟩
abbrev S2048x200 : Shape := ⟨2, ![2048, 200]⟩
abbrev S4096x200 : Shape := ⟨2, ![4096, 200]⟩
abbrev S1024x512 : Shape := ⟨2, ![1024, 512]⟩
abbrev S1024x200 : Shape := ⟨2, ![1024, 200]⟩
abbrev S64x64 : Shape := ⟨2, ![64, 64]⟩
abbrev S8x64 : Shape := ⟨2, ![8, 64]⟩
abbrev S200x4096 : Shape := ⟨2, ![200, 4096]⟩
abbrev S2048x4096 : Shape := ⟨2, ![2048, 4096]⟩
abbrev S8x256x4096 : Shape := ⟨3, ![8, 256, 4096]⟩
abbrev S8x4096 : Shape := ⟨2, ![8, 4096]⟩
abbrev S4096x64 : Shape := ⟨2, ![4096, 64]⟩

abbrev nBuf : Space → Nat
  | .hbm => 11
  | .vmem => 17
  | .smem => 0
  | _ => 0

abbrev bufTy : (tb : Table) → Fin (tcTables nBuf tb) → BufTy
  | .hbm, ⟨0, _⟩ => ⟨S64x256x512, .f32⟩
  | .hbm, ⟨1, _⟩ => ⟨S64x64x512, .f32⟩
  | .hbm, ⟨2, _⟩ => ⟨S200x512, .f32⟩
  | .hbm, ⟨3, _⟩ => ⟨S200, .f32⟩
  | .hbm, ⟨4, _⟩ => ⟨S16384x512, .f32⟩
  | .hbm, ⟨5, _⟩ => ⟨S4096x512, .f32⟩
  | .hbm, ⟨6, _⟩ => ⟨S512x200, .f32⟩
  | .hbm, ⟨7, _⟩ => ⟨S1x200, .f32⟩
  | .hbm, ⟨8, _⟩ => ⟨S16384x200, .bf16⟩
  | .hbm, ⟨9, _⟩ => ⟨S4096x200, .bf16⟩
  | .hbm, ⟨10, _⟩ => ⟨S64x64, .f32⟩
  | .local _ .vmem, ⟨0, _⟩ => ⟨S2048x512, .f32⟩
  | .local _ .vmem, ⟨1, _⟩ => ⟨S2048x512, .f32⟩
  | .local _ .vmem, ⟨2, _⟩ => ⟨S512x200, .f32⟩
  | .local _ .vmem, ⟨3, _⟩ => ⟨S1x200, .f32⟩
  | .local _ .vmem, ⟨4, _⟩ => ⟨S2048x200, .bf16⟩
  | .local _ .vmem, ⟨5, _⟩ => ⟨S2048x200, .bf16⟩
  | .local _ .vmem, ⟨6, _⟩ => ⟨S1024x512, .f32⟩
  | .local _ .vmem, ⟨7, _⟩ => ⟨S1024x512, .f32⟩
  | .local _ .vmem, ⟨8, _⟩ => ⟨S512x200, .f32⟩
  | .local _ .vmem, ⟨9, _⟩ => ⟨S1x200, .f32⟩
  | .local _ .vmem, ⟨10, _⟩ => ⟨S1024x200, .bf16⟩
  | .local _ .vmem, ⟨11, _⟩ => ⟨S1024x200, .bf16⟩
  | .local _ .vmem, ⟨12, _⟩ => ⟨S2048x200, .bf16⟩
  | .local _ .vmem, ⟨13, _⟩ => ⟨S2048x200, .bf16⟩
  | .local _ .vmem, ⟨14, _⟩ => ⟨S4096x200, .bf16⟩
  | .local _ .vmem, ⟨15, _⟩ => ⟨S8x64, .f32⟩
  | .local _ .vmem, ⟨16, _⟩ => ⟨S8x64, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x200 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x200 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x200 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x200 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S64x256x512_S16384x512 : S64x256x512.ShapeCasts S16384x512
  shapeCasts_S64x64x512_S4096x512 : S64x64x512.ShapeCasts S4096x512
  transposes_S200x512_S512x200_1_0 : S200x512.Transposes [1, 0] S512x200
  shapeCasts_S200_S1x200 : S200.ShapeCasts S1x200
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x200_S512x200_0_0 : ∀ a, (![0, 0] : Fin 2 → Nat) a + S512x200.size a ≤ S512x200.size a
  h_S512x200 : 0 < S512x200.numel
  shapeCasts_S512x200_S512x200 : S512x200.ShapeCasts S512x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2048x200 : S1x200.Broadcasts S2048x200
  inb_S2048x200_S2048x200_0_0 : ∀ a, (![0, 0] : Fin 2 → Nat) a + S2048x200.size a ≤ S2048x200.size a
  h_S2048x200 : 0 < S2048x200.numel
  packedbf16_S2048x200_S2048x200_0_0 : (Rect.unit (s := S2048x200) ![0, 0] S2048x200.size inb_S2048x200_S2048x200_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x200_S1024x200 : S1x200.Broadcasts S1024x200
  inb_S1024x200_S1024x200_0_0 : ∀ a, (![0, 0] : Fin 2 → Nat) a + S1024x200.size a ≤ S1024x200.size a
  h_S1024x200 : 0 < S1024x200.numel
  packedbf16_S1024x200_S1024x200_0_0 : (Rect.unit (s := S1024x200) ![0, 0] S1024x200.size inb_S1024x200_S1024x200_0_0).PackedRows (EltTy.packing .bf16)
  shapeCasts_S2048x200_S2048x200 : S2048x200.ShapeCasts S2048x200
  inb_S4096x200_S4096x200_0_0 : ∀ a, (![0, 0] : Fin 2 → Nat) a + S4096x200.size a ≤ S4096x200.size a
  h_S4096x200 : 0 < S4096x200.numel
  shapeCasts_S4096x200_S4096x200 : S4096x200.ShapeCasts S4096x200
  transposes_S4096x200_p1_0_S200x4096 : S4096x200.Transposes [1, 0] S200x4096
  shapeCasts_S2048x4096_S8x256x4096 : S2048x4096.ShapeCasts S8x256x4096
  reduces_S8x256x4096_S8x4096 : S8x256x4096.Reduces [1] S8x4096
  iota_S4096x64_d0_w32 : S4096x64.Iotas .tc 32 [0]
  iota_S4096x64_d1_w32 : S4096x64.Iotas .tc 32 [1]
  natLt_1_32 : 1 < 32
  inb_S8x64_S8x64_0_0 : ∀ a, (![0, 0] : Fin 2 → Nat) a + S8x64.size a ≤ S8x64.size a
  h_S8x64 : 0 < S8x64.numel
  dot_S2048x512_S512x200_S2048x200_1_0_0_1_n_n_wf : DotDims.WF S2048x512 S512x200 S2048x200 [1] [0] [0] [1] [] []
  dot_S1024x512_S512x200_S1024x200_1_0_0_1_n_n_wf : DotDims.WF S1024x512 S512x200 S1024x200 [1] [0] [0] [1] [] []
  dot_S2048x200_S200x4096_S2048x4096_1_0_0_1_n_n_wf : DotDims.WF S2048x200 S200x4096 S2048x4096 [1] [0] [0] [1] [] []
  dot_S8x4096_S4096x64_S8x64_1_0_0_1_n_n_wf : DotDims.WF S8x4096 S4096x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x200.size a ≤ S512x200.size a
  hwx0_1 : ∀ i : grid0.Coords, EltTy.bits .f32 = 32 ∨ (Rect.block (s := S512x200) S512x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x200.size a ≤ S1x200.size a
  hwx0_2 : ∀ i : grid0.Coords, EltTy.bits .f32 = 32 ∨ (Rect.block (s := S1x200) S1x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x200.size a ≤ S16384x200.size a
  hwx0_3 : ∀ i : grid0.Coords, EltTy.bits .bf16 = 32 ∨ (Rect.block (s := S16384x200) S2048x200.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x200.size a ≤ S512x200.size a
  hwx1_1 : ∀ i : grid1.Coords, EltTy.bits .f32 = 32 ∨ (Rect.block (s := S512x200) S512x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x200.size a ≤ S1x200.size a
  hwx1_2 : ∀ i : grid1.Coords, EltTy.bits .f32 = 32 ∨ (Rect.block (s := S1x200) S1x200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x200.size a ≤ S4096x200.size a
  hwx1_3 : ∀ i : grid1.Coords, EltTy.bits .bf16 = 32 ∨ (Rect.block (s := S4096x200) S1024x200.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x200.size a ≤ S16384x200.size a
  hwx2_0 : ∀ i : grid2.Coords, EltTy.bits .bf16 = 32 ∨ (Rect.block (s := S16384x200) S2048x200.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x200.size a ≤ S4096x200.size a
  hwx2_1 : ∀ i : grid2.Coords, EltTy.bits .bf16 = 32 ∨ (Rect.block (s := S4096x200) S4096x200.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x64.size a ≤ S64x64.size a
  hwx2_2 : ∀ i : grid2.Coords, EltTy.bits .f32 = 32 ∨ (Rect.block (s := S64x64) S8x64.size (cc2_transform_2 i) (hinb2_2 i)).WholeWords (EltTy.packing .f32)

variable [Facts₀]

def dot_S2048x512_S512x200_S2048x200_1_0_0_1_n_n : DotDims S2048x512 S512x200 S2048x200 where
  lhsContracting := [1]
  rhsContracting := [0]
  lhsNonContracting := [0]
  rhsNonContracting := [1]
  lhsBatch := []
  rhsBatch := []
  wf := dot_S2048x512_S512x200_S2048x200_1_0_0_1_n_n_wf
def dot_S1024x512_S512x200_S1024x200_1_0_0_1_n_n : DotDims S1024x512 S512x200 S1024x200 where
  lhsContracting := [1]
  rhsContracting := [0]
  lhsNonContracting := [0]
  rhsNonContracting := [1]
  lhsBatch := []
  rhsBatch := []
  wf := dot_S1024x512_S512x200_S1024x200_1_0_0_1_n_n_wf
def dot_S2048x200_S200x4096_S2048x4096_1_0_0_1_n_n : DotDims S2048x200 S200x4096 S2048x4096 where
  lhsContracting := [1]
  rhsContracting := [0]
  lhsNonContracting := [0]
  rhsNonContracting := [1]
  lhsBatch := []
  rhsBatch := []
  wf := dot_S2048x200_S200x4096_S2048x4096_1_0_0_1_n_n_wf
def dot_S8x4096_S4096x64_S8x64_1_0_0_1_n_n : DotDims S8x4096 S4096x64 S8x64 where
  lhsContracting := [1]
  rhsContracting := [0]
  lhsNonContracting := [0]
  rhsNonContracting := [1]
  lhsBatch := []
  rhsBatch := []
  wf := dot_S8x4096_S4096x64_S8x64_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S2048x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S4096x200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S8x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x256x512 : Shape := ⟨3, ![64, 256, 512]⟩
abbrev S64x64x512 : Shape := ⟨3, ![64, 64, 512]⟩
abbrev S200x512 : Shape := ⟨2, ![200, 512]⟩
abbrev S200 : Shape := ⟨1, ![200]⟩
abbrev S64x256x200 : Shape := ⟨3, ![64, 256, 200]⟩
abbrev S1x1x200 : Shape := ⟨3, ![1, 1, 200]⟩
abbrev S64x64x200 : Shape := ⟨3, ![64, 64, 200]⟩
abbrev S64x64x64x256 : Shape := ⟨4, ![64, 64, 64, 256]⟩
abbrev S64x64x256x64 : Shape := ⟨4, ![64, 64, 256, 64]⟩
abbrev S_ : Shape := ⟨0, ![]⟩
abbrev S64x64x64 : Shape := ⟨3, ![64, 64, 64]⟩
abbrev S64x64 : Shape := ⟨2, ![64, 64]⟩

abbrev nBuf : Space → Nat
  | .hbm => 21
  | .vmem => 0
  | .smem => 0
  | _ => 0

abbrev bufTy : (tb : Table) → Fin (tcTables nBuf tb) → BufTy
  | .hbm, ⟨0, _⟩ => ⟨S64x256x512, .f32⟩
  | .hbm, ⟨1, _⟩ => ⟨S64x64x512, .f32⟩
  | .hbm, ⟨2, _⟩ => ⟨S200x512, .f32⟩
  | .hbm, ⟨3, _⟩ => ⟨S200, .f32⟩
  | .hbm, ⟨4, _⟩ => ⟨S64x256x200, .f32⟩
  | .hbm, ⟨5, _⟩ => ⟨S1x1x200, .f32⟩
  | .hbm, ⟨6, _⟩ => ⟨S64x256x200, .f32⟩
  | .hbm, ⟨7, _⟩ => ⟨S64x256x200, .f32⟩
  | .hbm, ⟨8, _⟩ => ⟨S64x64x200, .f32⟩
  | .hbm, ⟨9, _⟩ => ⟨S1x1x200, .f32⟩
  | .hbm, ⟨10, _⟩ => ⟨S64x64x200, .f32⟩
  | .hbm, ⟨11, _⟩ => ⟨S64x64x200, .f32⟩
  | .hbm, ⟨12, _⟩ => ⟨S64x64x64x256, .f32⟩
  | .hbm, ⟨13, _⟩ => ⟨S64x64x256x64, .f32⟩
  | .hbm, ⟨14, _⟩ => ⟨S_, .f32⟩
  | .hbm, ⟨15, _⟩ => ⟨S64x64x64, .f32⟩
  | .hbm, ⟨16, _⟩ => ⟨S_, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | _, _ => ⟨S64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S200_S1x1x200_2 : S200.BroadcastsInDim S1x1x200 (![2] : Fin 1 → Fin S1x1x200.rank)
  bcast_S1x1x200_S64x256x200_0_1_2 : S1x1x200.BroadcastsInDim S64x256x200 (![0, 1, 2] : Fin 3 → Fin S64x256x200.rank)
  bcast_S1x1x200_S64x64x200_0_1_2 : S1x1x200.BroadcastsInDim S64x64x200 (![0, 1, 2] : Fin 3 → Fin S64x64x200.rank)
  transposes_S64x64x64x256_S64x64x256x64_2_0_3_1 : S64x64x64x256.Transposes [2, 0, 3, 1] S64x64x256x64
  reducesTo_S64x64x256x64_S64x64x64_d2 : S64x64x256x64.ReducesTo [2] S64x64x64
  h_S_ : 0 < S_.numel
  reducesTo_S64x64x64_S64x64_d2 : S64x64x64.ReducesTo [2] S64x64
  bcast_S_S64x64 : S_.BroadcastsInDim S64x64 (![] : Fin 0 → Fin S64x64.rank)
  dot_S64x256x512_S200x512_S64x256x200_2_1_01_0_n_n_wf : DotDims.WF S64x256x512 S200x512 S64x256x200 [2] [1] [0, 1] [0] [] []
  dot_S64x64x512_S200x512_S64x64x200_2_1_01_0_n_n_wf : DotDims.WF S64x64x512 S200x512 S64x64x200 [2] [1] [0, 1] [0] [] []
  dot_S64x64x200_S64x256x200_S64x64x64x256_2_2_01_01_n_n_wf : DotDims.WF S64x64x200 S64x256x200 S64x64x64x256 [2] [2] [0, 1] [0, 1] [] []

variable [Facts₀]

def dot_S64x256x512_S200x512_S64x256x200_2_1_01_0_n_n : DotDims S64x256x512 S200x512 S64x256x200 where
  lhsContracting := [2]
  rhsContracting := [1]
  lhsNonContracting := [0, 1]
  rhsNonContracting := [0]
  lhsBatch := []
  rhsBatch := []
  wf := dot_S64x256x512_S200x512_S64x256x200_2_1_01_0_n_n_wf
def dot_S64x64x512_S200x512_S64x64x200_2_1_01_0_n_n : DotDims S64x64x512 S200x512 S64x64x200 where
  lhsContracting := [2]
  rhsContracting := [1]
  lhsNonContracting := [0, 1]
  rhsNonContracting := [0]
  lhsBatch := []
  rhsBatch := []
  wf := dot_S64x64x512_S200x512_S64x64x200_2_1_01_0_n_n_wf
def dot_S64x64x200_S64x256x200_S64x64x64x256_2_2_01_01_n_n : DotDims S64x64x200 S64x256x200 S64x64x64x256 where
  lhsContracting := [2]
  rhsContracting := [2]
  lhsNonContracting := [0, 1]
  rhsNonContracting := [0, 1]
  lhsBatch := []
  rhsBatch := []
  wf := dot_S64x64x200_S64x256x200_S64x64x64x256_2_2_01_01_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«177391_j15281493639180_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.Spec.lean ====
/-
  Retrieval scores between two batches of sequences, as plain functions of matrices of extended reals.

  Every sequence element is first projected: a row `x r` of 512 numbers goes to the 200 numbers
  `∑ d, x (r, d) · w (d, e) + b e` (`project`). The score of item `i` of the first batch (256 projected rows
  `xrow i l`) against item `j` of the second (64 projected rows `ycol j t`) is the mean over `t` of the best match
  of row `t`: the maximum over `l` of the inner product `sim` of the two projected rows.

  Two spellings of that mean are stated and proved equal, on the extended reals and with no finiteness assumed:
  `pooledMean` adds the 64 maxima of the group and divides by 64; `pooled` sums, over ALL 4096 projected rows `k` of
  the second batch, the maximum against row `k` times a weight that is `1/64` when `k` lies in group `j`
  (`k / 64 = j`) and zero otherwise. The step is: a product with zero is zero, so only the group's own 64 terms are
  left; and the product with the nonnegative real `1/64` distributes over a sum of extended reals whatever their
  signs and infinities, while division by the real 64 is the product with `1/64`.
-/
import Idealize.ShloMosaic.Lib.ValueIdx
import Idealize.ShloMosaic.PureOps.Ideal.Laws
import proofs.«177391_j15281493639180_1_alg».proof.Proof.LibDenseLayer

noncomputable section

namespace Cert.Retrieval

open Idealize.ShloMosaic Idealize.ShloMosaic.ValueIdx Cert.DenseLayer

/-! ## The three float words the two programs write -/

/-- The word `0x3C800000` denotes `1/64`. -/
theorem ofBits_inv64 : Ideal.ofBits .f32 0x3C800000#32 = ((1 / 64 : ℝ) : EReal) := by
  simp [Ideal.ofBits, Ideal.ieee, -EReal.coe_mul]; norm_num

/-- The word `0x42800000` denotes `64`. -/
theorem ofBits_64 : Ideal.ofBits .f32 0x42800000#32 = ((64 : ℝ) : EReal) := by
  simp [Ideal.ofBits, Ideal.ieee, -EReal.coe_mul]; norm_num

/-- The zero word denotes `0`. -/
theorem ofBits_zero : Ideal.ofBits .f32 0x00000000#32 = 0 := Ideal.ofBits_zero_f32

/-! ## The projection -/

variable {a K N : ℕ}

/-- `x · w` plus a bias held as a one-row matrix: at `(r, q)` the row product plus `b (0, q)`. -/
def project (x : Mat a K) (w : Mat K N) (b : Mat 1 N) : Mat a N :=
  fun i => prodRow x w (i 0) (i 1) + b (ix2 (0 : Fin 1) (i 1))

theorem project_apply (x : Mat a K) (w : Mat K N) (b : Mat 1 N) (r : Fin a) (q : Fin N) :
    project x w b (ix2 r q) = prodRow x w r q + b (ix2 (0 : Fin 1) q) := rfl

/-- An entry of the projection depends on the left matrix only through the entry's row. -/
theorem project_congr {a' : ℕ} (x : Mat a K) (x' : Mat a' K) (w : Mat K N) (b : Mat 1 N) (r : Fin a) (r' : Fin a')
    (h : ∀ k, x (ix2 r k) = x' (ix2 r' k)) (q : Fin N) : project x w b (ix2 r q) = project x' w b (ix2 r' q) := by
  rw [project_apply, project_apply, prodRow_congr x x' w r r' h]

/-! ## Rows of the two flattened batches -/

/-- Row `l` of item `i` of the first batch, in the flattened `[64 · 256, _]` matrix. -/
def xrow (i : Fin 64) (l : Fin 256) : Fin 16384 := ⟨i.val * 256 + l.val, by have := i.isLt; have := l.isLt; omega⟩

/-- Row `t` of item `j` of the second batch, in the flattened `[64 · 64, _]` matrix. -/
def ycol (j : Fin 64) (t : Fin 64) : Fin 4096 := ⟨j.val * 64 + t.val, by have := j.isLt; have := t.isLt; omega⟩

@[simp] theorem xrow_val (i : Fin 64) (l : Fin 256) : (xrow i l).val = i.val * 256 + l.val := rfl
@[simp] theorem ycol_val (j : Fin 64) (t : Fin 64) : (ycol j t).val = j.val * 64 + t.val := rfl

/-! ## Similarity, best match, and the two spellings of the mean -/

/-- The inner product of projected row `r` of the first batch with projected row `k` of the second. -/
def sim (xp : Mat 16384 200) (yp : Mat 4096 200) (r : Fin 16384) (k : Fin 4096) : EReal :=
  ∑ e : Fin 200, xp (ix2 r e) * yp (ix2 k e)

/-- The best match of row `k` of the second batch among the 256 rows of item `i` of the first: the maximum,
    taken from `-∞` (the word a program writes). -/
def best (xp : Mat 16384 200) (yp : Mat 4096 200) (i : Fin 64) (k : Fin 4096) : EReal :=
  (Finset.univ : Finset (Fin 256)).fold max (Ideal.ofBits .f32 0xFF800000#32) (fun l => sim xp yp (xrow i l) k)

/-- The weight of row `k` of the second batch in the mean of group `j`: `1/64` inside the group, zero outside. -/
def weight (k : Fin 4096) (j : Fin 64) : EReal :=
  if k.val / 64 = j.val then Ideal.ofBits .f32 0x3C800000#32 else Ideal.ofBits .f32 0x00000000#32

/-- The score of item `i` against item `j` as a weighted sum over every row of the second batch. -/
def pooledAt (xp : Mat 16384 200) (yp : Mat 4096 200) (i j : Fin 64) : EReal :=
  ∑ k : Fin 4096, best xp yp i k * weight k j

/-- The same score as the group's sum (from the zero word) divided by 64. -/
def pooledMeanAt (xp : Mat 16384 200) (yp : Mat 4096 200) (i j : Fin 64) : EReal :=
  Ideal.div (Ideal.ofBits .f32 0x00000000#32 + ∑ t : Fin 64, best xp yp i (ycol j t)) (Ideal.ofBits .f32 0x42800000#32)

/-- The scores, as a `[64, 64]` matrix, in the first spelling. -/
def pooled (xp : Mat 16384 200) (yp : Mat 4096 200) : Mat 64 64 := fun i => pooledAt xp yp (i 0) (i 1)

theorem pooled_apply (xp : Mat 16384 200) (yp : Mat 4096 200) (i j : Fin 64) :
    pooled xp yp (ix2 i j) = pooledAt xp yp i j := rfl

/-- The product with a nonnegative real distributes over a finite sum of extended reals. -/
theorem sum_mul_coe_of_nonneg {ι : Type*} (s : Finset ι) (g : ι → EReal) {c : ℝ} (hc : 0 ≤ c) :
    (∑ t ∈ s, g t) * (c : EReal) = ∑ t ∈ s, g t * (c : EReal) := by
  classical
  induction s using Finset.induction_on with
  | empty => simp
  | insert x s hx ih =>
    rw [Finset.sum_insert hx, Finset.sum_insert hx,
      EReal.right_distrib_of_nonneg_of_ne_top (by exact_mod_cast hc) (EReal.coe_ne_top c), ih]

/-- A weighted sum over all 4096 rows with the group weights of `j` is the sum over the group's own 64 rows, each
    times `1/64`. -/
theorem sum_weight (f : Fin 4096 → EReal) (j : Fin 64) :
    ∑ k : Fin 4096, f k * weight k j = ∑ t : Fin 64, f (ycol j t) * ((1 / 64 : ℝ) : EReal) := by
  have h1 : ∀ k : Fin 4096, f k * weight k j = if k.val / 64 = j.val then f k * ((1 / 64 : ℝ) : EReal) else 0 := fun k => by
    unfold weight
    split
    · rw [ofBits_inv64]
    · rw [ofBits_zero, mul_zero]
  rw [Finset.sum_congr rfl fun k _ => h1 k, ← Finset.sum_filter]
  symm
  refine Finset.sum_nbij' (fun t => ycol j t) (fun k => ⟨k.val % 64, Nat.mod_lt _ (by decide)⟩) ?_ ?_ ?_ ?_ ?_
  · intro t _
    rw [Finset.mem_filter]
    refine ⟨Finset.mem_univ _, ?_⟩
    have := t.isLt
    rw [ycol_val]; omega
  · intro k _; exact Finset.mem_univ _
  · intro t _
    apply Fin.ext
    have := t.isLt
    show (j.val * 64 + t.val) % 64 = t.val
    omega
  · intro k hk
    rw [Finset.mem_filter] at hk
    apply Fin.ext
    show j.val * 64 + k.val % 64 = k.val
    have := hk.2
    omega
  · intro t _; rfl

/-- The two spellings of the mean are one number. -/
theorem pooledAt_eq_pooledMeanAt (xp : Mat 16384 200) (yp : Mat 4096 200) (i j : Fin 64) :
    pooledAt xp yp i j = pooledMeanAt xp yp i j := by
  unfold pooledAt pooledMeanAt
  rw [sum_weight, ofBits_zero, zero_add, ofBits_64, Ideal.div_coe (by norm_num : (64 : ℝ) ≠ 0),
    sum_mul_coe_of_nonneg _ _ (by norm_num : (0 : ℝ) ≤ 1 / 64)]

end Cert.Retrieval

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«177391_j15281493639180_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.Region0.lean ====
/-
  The first projection call: what its output array holds once every grid point has written its block back.

  Grid point `t` (of 8) loads rows `2048 t … 2048 t + 2047` of the flattened first batch, the whole transposed
  weight matrix and the whole bias row, and stores `x · w + b` of them: the block's entry `(p, q)` is entry
  `(2048 t + p, q)` of the projection of the whole arrays, because a row of the product reads only that row of
  the left matrix. The eight blocks tile the `[16384, 200]` array, so the array ends as the projection.
-/
import proofs.«177391_j15281493639180_1_alg».proof.Proof.Gen.KernelIdeal.Frame
import proofs.«177391_j15281493639180_1_alg».proof.Proof.Spec
import proofs.«177391_j15281493639180_1_alg».proof.Proof.LibPlainDot
import Idealize.ShloMosaic.Lib.Pipeline.Value
import Idealize.ShloMosaic.Lib.ValueLayout

set_option maxRecDepth 16384

noncomputable section

namespace Cert.KernelIdeal.Region0

open Cert.KernelIdeal Cert.KernelIdeal.Gen Cert.DenseLayer Cert.Retrieval
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's arithmetic at `(p, q)`: the row product of row `p` of the loaded rows with column `q` of the loaded
    weights, plus the loaded bias at `q` (the changes of float format are the identity on the values). -/
theorem pay_apply (x0 : Vec Ideal S2048x512 .f32) (x1 : Vec Ideal S512x200 .f32) (x2 : Vec Ideal S1x200 .f32)
    (p : Fin 2048) (q : Fin 200) :
    k0_pay1 (F := Ideal) x0 x1 x2 (ix2 p q) = project x0 x1 x2 (ix2 p q) := by
  unfold k0_pay1
  simp only [shapeCast_self]
  show (FloatOps.matmul (F := Ideal) dot_S2048x512_S512x200_S2048x200_1_0_0_1_n_n none (x0 : FVec Ideal S2048x512 .f32)
        (x1 : FVec Ideal S512x200 .f32) (constant S2048x200 .f32 0x00000000#32) (ix2 p q) : EReal)
      + (broadcastTo S2048x200 (x2 : FVec Ideal S1x200 .f32) broadcasts_S1x200_S2048x200 (ix2 p q) : EReal) = _
  rw [matmul_zero_apply (plainDot_of_axes _ rfl rfl rfl rfl rfl rfl), broadcastTo_1b_ab_apply]
  rfl

/-- The same entry as an entry of the projection of whole arrays that agree with the loaded blocks where the entry
    reads them. -/
theorem block_entry (x0 : Vec Ideal S2048x512 .f32) (x1 : Vec Ideal S512x200 .f32) (x2 : Vec Ideal S1x200 .f32)
    (a0 : Vec Ideal S16384x512 .f32) (a2 : Vec Ideal S512x200 .f32) (a3 : Vec Ideal S1x200 .f32)
    (p : Fin 2048) (q : Fin 200) (r : Fin 16384)
    (h0 : ∀ k : Fin 512, x0 (ix2 p k) = a0 (ix2 r k)) (h1 : ∀ k : Fin 512, x1 (ix2 k q) = a2 (ix2 k q))
    (h2 : x2 (ix2 (0 : Fin 1) q) = a3 (ix2 (0 : Fin 1) q)) :
    k0_pay1 (F := Ideal) x0 x1 x2 (ix2 p q) = project a0 a2 a3 (ix2 r q) := by
  rw [pay_apply, project_apply, project_apply, h2]
  refine congrArg (· + _) (Finset.sum_congr rfl fun k _ => ?_)
  rw [h0 k, h1 k]

/-! ## From the blocks to the array -/

section Array

variable (V : (c : Dev nD) → (b : Ref sig .tc) → Buf (Elt Ideal) ((c : Thread nD τ).loc b))

/-- The three arrays the call reads, as the region finds them, at their literal types. -/
abbrev rowsIn (c : Dev nD) : Vec Ideal S16384x512 .f32 := V c main_v0
abbrev weightsIn (c : Dev nD) : Vec Ideal S512x200 .f32 := V c main_v2
abbrev biasIn (c : Dev nD) : Vec Ideal S1x200 .f32 := V c main_v3

/-- The printed index maps over the grid: the rows window and the output window move with the point, the weights
    and the bias stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the projection of the whole arrays. -/
theorem flushed_eq (c : Dev nD) (t : Fin cfg0.N) :
    (dat0 V c).flushed 3 t = ((cfg0.win 3).blk t).view.read (Elt Ideal)
      (project (rowsIn V c) (weightsIn V c) (biasIn V c)) := by
  show (cfg0.win 3).cut (grid0.coords t) ((dat0 V c).after 3 t) = _
  rw [after0_3]
  unfold out0_3
  rw [View.canon_unit_zero hz]
  simp only [View.ld_unit_zero (S := S2048x512) hz, View.ld_unit_zero (S := S512x200) hz, View.ld_unit_zero (S := S1x200) hz]
  obtain ⟨e00, e01, e10, e11, e20, e21, e30, e31⟩ := idx_facts t
  have ht : t.val < 8 := Nat.lt_of_lt_of_eq t.isLt N_0
  funext j
  have hj0 : (j 0).val < 2048 := (j 0).isLt
  have hj1 : (j 1).val < 200 := (j 1).isLt
  have e1 : (cfg0.win 3).xinj (grid0.coords t) j = ix2 (⟨(j 0).val, hj0⟩ : Fin 2048) (⟨(j 1).val, hj1⟩ : Fin 200) :=
    funext fun a => Fin.ext (by match a with | ⟨0, _⟩ => rfl | ⟨1, _⟩ => rfl)
  have e2 : ((cfg0.win 3).blk t).view.emb j
      = ix2 (⟨t.val * 2048 + (j 0).val, by omega⟩ : Fin 16384) (⟨(j 1).val, hj1⟩ : Fin 200) :=
    funext fun a => Fin.ext (by
      match a with
      | ⟨0, _⟩ => show win0_3.index t (0 : Fin 2) * 2048 + 1 * (j 0).val = t.val * 2048 + (j 0).val; omega
      | ⟨1, _⟩ => show win0_3.index t (1 : Fin 2) * 200 + 1 * (j 1).val = (j 1).val; omega)
  show k0_pay1 (iblk0 V c 0 t) (iblk0 V c 1 t) (iblk0 V c 2 t) ((cfg0.win 3).xinj (grid0.coords t) j)
    = project (rowsIn V c) (weightsIn V c) (biasIn V c) (((cfg0.win 3).blk t).view.emb j)
  rw [e1, e2]
  refine block_entry (iblk0 V c 0 t) (iblk0 V c 1 t) (iblk0 V c 2 t) (rowsIn V c) (weightsIn V c) (biasIn V c) _ _ _
    (fun k => ?_) (fun k => ?_) ?_
  · show V c main_v0 (((cfg0.win 0).blk t).view.emb (ix2 (⟨(j 0).val, hj0⟩ : Fin 2048) k)) = V c main_v0 _
    refine congrArg _ (funext fun a => Fin.ext ?_)
    match a with
    | ⟨0, _⟩ => show win0_0.index t (0 : Fin 2) * 2048 + 1 * (j 0).val = t.val * 2048 + (j 0).val; omega
    | ⟨1, _⟩ => show win0_0.index t (1 : Fin 2) * 512 + 1 * k.val = k.val; omega
  · show V c main_v2 (((cfg0.win 1).blk t).view.emb (ix2 k (⟨(j 1).val, hj1⟩ : Fin 200))) = V c main_v2 _
    refine congrArg _ (funext fun a => Fin.ext ?_)
    match a with
    | ⟨0, _⟩ => show win0_1.index t (0 : Fin 2) * 512 + 1 * k.val = k.val; omega
    | ⟨1, _⟩ => show win0_1.index t (1 : Fin 2) * 200 + 1 * (j 1).val = (j 1).val; omega
  · show V c main_v3 (((cfg0.win 2).blk t).view.emb (ix2 (0 : Fin 1) (⟨(j 1).val, hj1⟩ : Fin 200))) = V c main_v3 _
    refine congrArg _ (funext fun a => Fin.ext ?_)
    match a with
    | ⟨0, _⟩ => show win0_2.index t (0 : Fin 2) * 1 + 1 * 0 = 0; omega
    | ⟨1, _⟩ => show win0_2.index t (1 : Fin 2) * 200 + 1 * (j 1).val = (j 1).val; omega

/-- An index of the array is in point `t`'s block iff each coordinate is in the block's range on its axis. -/
theorem mem_blk (t : Fin cfg0.N) (i : S16384x200.Idx) :
    i ∈ ((cfg0.win 3).blk t).view.set ↔ ∀ a : Fin 2, win0_3.index t a * S2048x200.size a ≤ (i a).val
      ∧ (i a).val < win0_3.index t a * S2048x200.size a + S2048x200.size a := by
  show i ∈ ((View.whole main_v4).slice (win0_3.rect t)).set ↔ _
  rw [View.set_slice_whole, Rect.mem_set_unit]
  exact Iff.rfl

/-- The eight blocks tile the array: row `r` lies in the block of point `r / 2048`. -/
theorem cover (i : S16384x200.Idx) :
    ∃ t : Fin cfg0.N, (cfg0.win 3).flush t = true ∧ i ∈ ((cfg0.win 3).blk t).view.set := by
  have hi0 : (i 0).val < 16384 := (i 0).isLt
  have hi1 : (i 1).val < 200 := (i 1).isLt
  let t : Fin cfg0.N := ⟨(i 0).val / 2048, by rw [show cfg0.N = 8 from N_0]; omega⟩
  obtain ⟨e00, e01, e10, e11, e20, e21, e30, e31⟩ := idx_facts t
  have e30' : win0_3.index t (0 : Fin 2) = (i 0).val / 2048 := e30
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 200 ≤ (i 1).val ∧ (i 1).val < win0_3.index t (1 : Fin 2) * 200 + 200
    omega

/-- The output array after the call is the projection of the three arrays the call reads. -/
theorem final (c : Dev nD) :
    (dat0 V c).arrAt 3 cfg0.N = project (rowsIn V c) (weightsIn V c) (biasIn V c) :=
  (dat0 V c).arrAt_eq_of_cover 3 (project (rowsIn V c) (weightsIn V c) (biasIn V c))
    (fun t _ => flushed_eq V c t) cover

end Array

end Cert.KernelIdeal.Region0

end
-- ==== Proof.Region1.lean ====
/-
  The second projection call: what its output array holds once every grid point has written its block back.

  Grid point `t` (of 4) loads rows `1024 t … 1024 t + 1023` of the flattened second batch, the whole transposed
  weight matrix and the whole bias row, and stores `x · w + b` of them: the block's entry `(p, q)` is entry
  `(1024 t + p, q)` of the projection of the whole arrays, because a row of the product reads only that row of
  the left matrix. The four blocks tile the `[4096, 200]` array, so the array ends as the projection.
-/
import proofs.«177391_j15281493639180_1_alg».proof.Proof.Gen.KernelIdeal.Frame
import proofs.«177391_j15281493639180_1_alg».proof.Proof.Spec
import proofs.«177391_j15281493639180_1_alg».proof.Proof.LibPlainDot
import Idealize.ShloMosaic.Lib.Pipeline.Value
import Idealize.ShloMosaic.Lib.ValueLayout

set_option maxRecDepth 4096

noncomputable section

namespace Cert.KernelIdeal.Region1

open Cert.KernelIdeal Cert.KernelIdeal.Gen Cert.DenseLayer Cert.Retrieval
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's arithmetic at `(p, q)`: the row product of row `p` of the loaded rows with column `q` of the loaded
    weights, plus the loaded bias at `q` (the changes of float format are the identity on the values). -/
theorem pay_apply (x0 : Vec Ideal S1024x512 .f32) (x1 : Vec Ideal S512x200 .f32) (x2 : Vec Ideal S1x200 .f32)
    (p : Fin 1024) (q : Fin 200) :
    k1_pay1 (F := Ideal) x0 x1 x2 (ix2 p q) = project x0 x1 x2 (ix2 p q) := by
  unfold k1_pay1
  simp only [shapeCast_self]
  show (FloatOps.matmul (F := Ideal) dot_S1024x512_S512x200_S1024x200_1_0_0_1_n_n none (x0 : FVec Ideal S1024x512 .f32)
        (x1 : FVec Ideal S512x200 .f32) (constant S1024x200 .f32 0x00000000#32) (ix2 p q) : EReal)
      + (broadcastTo S1024x200 (x2 : FVec Ideal S1x200 .f32) broadcasts_S1x200_S1024x200 (ix2 p q) : EReal) = _
  rw [matmul_zero_apply (plainDot_of_axes _ rfl rfl rfl rfl rfl rfl), broadcastTo_1b_ab_apply]
  rfl

/-- The same entry as an entry of the projection of whole arrays that agree with the loaded blocks where the entry
    reads them. -/
theorem block_entry (x0 : Vec Ideal S1024x512 .f32) (x1 : Vec Ideal S512x200 .f32) (x2 : Vec Ideal S1x200 .f32)
    (a0 : Vec Ideal S4096x512 .f32) (a2 : Vec Ideal S512x200 .f32) (a3 : Vec Ideal S1x200 .f32)
    (p : Fin 1024) (q : Fin 200) (r : Fin 4096)
    (h0 : ∀ k : Fin 512, x0 (ix2 p k) = a0 (ix2 r k)) (h1 : ∀ k : Fin 512, x1 (ix2 k q) = a2 (ix2 k q))
    (h2 : x2 (ix2 (0 : Fin 1) q) = a3 (ix2 (0 : Fin 1) q)) :
    k1_pay1 (F := Ideal) x0 x1 x2 (ix2 p q) = project a0 a2 a3 (ix2 r q) := by
  rw [pay_apply, project_apply, project_apply, h2]
  refine congrArg (· + _) (Finset.sum_congr rfl fun k _ => ?_)
  rw [h0 k, h1 k]

/-! ## From the blocks to the array -/

section Array

variable (V : (c : Dev nD) → (b : Ref sig .tc) → Buf (Elt Ideal) ((c : Thread nD τ).loc b))

/-- The three arrays the call reads, as the region finds them, at their literal types. -/
abbrev rowsIn (c : Dev nD) : Vec Ideal S4096x512 .f32 := V c main_v1
abbrev weightsIn (c : Dev nD) : Vec Ideal S512x200 .f32 := V c main_v2
abbrev biasIn (c : Dev nD) : Vec Ideal S1x200 .f32 := V c main_v3

/-- The printed index maps over the grid: the rows window and the output window move with the point, the weights
    and the bias stay at block zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the projection of the whole arrays. -/
theorem flushed_eq (c : Dev nD) (t : Fin cfg1.N) :
    (dat1 V c).flushed 3 t = ((cfg1.win 3).blk t).view.read (Elt Ideal)
      (project (rowsIn V c) (weightsIn V c) (biasIn V c)) := by
  show (cfg1.win 3).cut (grid1.coords t) ((dat1 V c).after 3 t) = _
  rw [after1_3]
  unfold out1_3
  rw [View.canon_unit_zero hz]
  simp only [View.ld_unit_zero (S := S1024x512) hz, View.ld_unit_zero (S := S512x200) hz, View.ld_unit_zero (S := S1x200) hz]
  obtain ⟨e00, e01, e10, e11, e20, e21, e30, e31⟩ := idx_facts t
  have ht : t.val < 4 := Nat.lt_of_lt_of_eq t.isLt N_1
  funext j
  have hj0 : (j 0).val < 1024 := (j 0).isLt
  have hj1 : (j 1).val < 200 := (j 1).isLt
  have e1 : (cfg1.win 3).xinj (grid1.coords t) j = ix2 (⟨(j 0).val, hj0⟩ : Fin 1024) (⟨(j 1).val, hj1⟩ : Fin 200) :=
    funext fun a => Fin.ext (by match a with | ⟨0, _⟩ => rfl | ⟨1, _⟩ => rfl)
  have e2 : ((cfg1.win 3).blk t).view.emb j
      = ix2 (⟨t.val * 1024 + (j 0).val, by omega⟩ : Fin 4096) (⟨(j 1).val, hj1⟩ : Fin 200) :=
    funext fun a => Fin.ext (by
      match a with
      | ⟨0, _⟩ => show win1_3.index t (0 : Fin 2) * 1024 + 1 * (j 0).val = t.val * 1024 + (j 0).val; omega
      | ⟨1, _⟩ => show win1_3.index t (1 : Fin 2) * 200 + 1 * (j 1).val = (j 1).val; omega)
  show k1_pay1 (iblk1 V c 0 t) (iblk1 V c 1 t) (iblk1 V c 2 t) ((cfg1.win 3).xinj (grid1.coords t) j)
    = project (rowsIn V c) (weightsIn V c) (biasIn V c) (((cfg1.win 3).blk t).view.emb j)
  rw [e1, e2]
  refine block_entry (iblk1 V c 0 t) (iblk1 V c 1 t) (iblk1 V c 2 t) (rowsIn V c) (weightsIn V c) (biasIn V c) _ _ _
    (fun k => ?_) (fun k => ?_) ?_
  · show V c main_v1 (((cfg1.win 0).blk t).view.emb (ix2 (⟨(j 0).val, hj0⟩ : Fin 1024) k)) = V c main_v1 _
    refine congrArg _ (funext fun a => Fin.ext ?_)
    match a with
    | ⟨0, _⟩ => show win1_0.index t (0 : Fin 2) * 1024 + 1 * (j 0).val = t.val * 1024 + (j 0).val; omega
    | ⟨1, _⟩ => show win1_0.index t (1 : Fin 2) * 512 + 1 * k.val = k.val; omega
  · show V c main_v2 (((cfg1.win 1).blk t).view.emb (ix2 k (⟨(j 1).val, hj1⟩ : Fin 200))) = V c main_v2 _
    refine congrArg _ (funext fun a => Fin.ext ?_)
    match a with
    | ⟨0, _⟩ => show win1_1.index t (0 : Fin 2) * 512 + 1 * k.val = k.val; omega
    | ⟨1, _⟩ => show win1_1.index t (1 : Fin 2) * 200 + 1 * (j 1).val = (j 1).val; omega
  · show V c main_v3 (((cfg1.win 2).blk t).view.emb (ix2 (0 : Fin 1) (⟨(j 1).val, hj1⟩ : Fin 200))) = V c main_v3 _
    refine congrArg _ (funext fun a => Fin.ext ?_)
    match a with
    | ⟨0, _⟩ => show win1_2.index t (0 : Fin 2) * 1 + 1 * 0 = 0; omega
    | ⟨1, _⟩ => show win1_2.index t (1 : Fin 2) * 200 + 1 * (j 1).val = (j 1).val; omega

/-- An index of the array is in point `t`'s block iff each coordinate is in the block's range on its axis. -/
theorem mem_blk (t : Fin cfg1.N) (i : S4096x200.Idx) :
    i ∈ ((cfg1.win 3).blk t).view.set ↔ ∀ a : Fin 2, win1_3.index t a * S1024x200.size a ≤ (i a).val
      ∧ (i a).val < win1_3.index t a * S1024x200.size a + S1024x200.size a := by
  show i ∈ ((View.whole main_v5).slice (win1_3.rect t)).set ↔ _
  rw [View.set_slice_whole, Rect.mem_set_unit]
  exact Iff.rfl

/-- The four blocks tile the array: row `r` lies in the block of point `r / 1024`. -/
theorem cover (i : S4096x200.Idx) :
    ∃ t : Fin cfg1.N, (cfg1.win 3).flush t = true ∧ i ∈ ((cfg1.win 3).blk t).view.set := by
  have hi0 : (i 0).val < 4096 := (i 0).isLt
  have hi1 : (i 1).val < 200 := (i 1).isLt
  let t : Fin cfg1.N := ⟨(i 0).val / 1024, by rw [show cfg1.N = 4 from N_1]; omega⟩
  obtain ⟨e00, e01, e10, e11, e20, e21, e30, e31⟩ := idx_facts t
  have e30' : win1_3.index t (0 : Fin 2) = (i 0).val / 1024 := e30
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 200 ≤ (i 1).val ∧ (i 1).val < win1_3.index t (1 : Fin 2) * 200 + 200
    omega

/-- The output array after the call is the projection of the three arrays the call reads. -/
theorem final (c : Dev nD) :
    (dat1 V c).arrAt 3 cfg1.N = project (rowsIn V c) (weightsIn V c) (biasIn V c) :=
  (dat1 V c).arrAt_eq_of_cover 3 (project (rowsIn V c) (weightsIn V c) (biasIn V c))
    (fun t _ => flushed_eq V c t) cover

end Array

end Cert.KernelIdeal.Region1

end
-- ==== Proof.Words.lean ====
/-
  The group of a row, computed on 32-bit words.

  A vector program that wants `k / 64` rounded toward minus infinity computes the quotient rounded toward zero and
  subtracts one when the signs of `k` and of 64 differ and the remainder is not zero. For a word `k` below 4096 the
  signs agree, the correction never fires, and the result is the word of `k / 64`; so the test "the group of `k`
  is `q`" is the equation `k / 64 = q` on natural numbers.
-/
import Idealize.ShloMosaic.PureOps
import Idealize.ShloMosaic.Lib.ValueIdx
import Idealize.ShloMosaic.Lib.StableHlo.Predicate

namespace Cert.Retrieval.Words

open Idealize.ShloMosaic

/-- The sign of 64 as the program computes it: (64 > 0) − (64 < 0). -/
def sign64 : BitVec 32 :=
  Scalar.subi (Scalar.extui (Scalar.cmpi .sgt 64#32 0#32)) (Scalar.extui (Scalar.cmpi .slt 64#32 0#32))

/-- The floor quotient of the word `a` by 64, operation by operation. -/
def floorDiv64 (a : BitVec 32) : BitVec 32 :=
  Scalar.select
    (IntOp.andi
      (IntOp.cmpi .ne (IntOp.subi ((IntOp.cmpi .sgt a 0#32).setWidth 32) ((IntOp.cmpi .slt a 0#32).setWidth 32)) sign64)
      (IntOp.cmpi .ne (IntOp.remsi .vector a 64#32) 0#32))
    (IntOp.subi (IntOp.divsi .vector a 64#32) 1#32)
    (IntOp.divsi .vector a 64#32)

/-- A small word divided by 64, rounded toward zero: no corner is met. -/
theorem divsi_64 (w : BitVec 32) (hw : w.toNat < 2 ^ 31) : (IntOp.divsi .vector w 64#32).toNat = w.toNat / 64 := by
  have hcorner : ¬ IntOp.SDivCorner w 64#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (64#32 : BitVec 32).msb = false from by decide, BitVec.udiv_eq,
    BitVec.toNat_udiv, BitVec.toNat_ofNat]

/-- For a positive small word the sign test agrees with the sign of 64, so the correction's first condition is off. -/
theorem sign_pos (a : BitVec 32) (ha : a.toNat < 2 ^ 31) (hpos : 0 < a.toNat) :
    IntOp.cmpi .ne (IntOp.subi ((IntOp.cmpi .sgt a 0#32).setWidth 32) ((IntOp.cmpi .slt a 0#32).setWidth 32)) sign64 = 0#1 := by
  have h1 : IntOp.cmpi .sgt a 0#32 = 1#1 := (StableHlo.Predicate.sgt_iff_toNat ha (by decide)).mpr hpos
  have h2 : IntOp.cmpi .slt a 0#32 = 0#1 := ValueIdx.eq_zero_of_ne_one fun h =>
    absurd ((StableHlo.Predicate.slt_iff_toNat ha (by decide)).mp h) (by simp)
  rw [h1, h2]
  decide

theorem floorDiv64_ofNat (k : Nat) (hk : k < 4096) : floorDiv64 (BitVec.ofNat 32 k) = BitVec.ofNat 32 (k / 64) := by
  have hk' : (BitVec.ofNat 32 k).toNat = k := by rw [BitVec.toNat_ofNat]; omega
  have hdiv : IntOp.divsi .vector (BitVec.ofNat 32 k) 64#32 = BitVec.ofNat 32 (k / 64) := by
    apply BitVec.eq_of_toNat_eq
    rw [divsi_64 _ (by rw [hk']; omega), hk', BitVec.toNat_ofNat]
    omega
  rcases Nat.eq_zero_or_pos k with rfl | hpos
  · decide
  · unfold floorDiv64
    rw [sign_pos _ (by rw [hk']; omega) (by rw [hk']; exact hpos)]
    show Scalar.select (0#1 &&& _) _ _ = _
    rw [BitVec.zero_and, ValueIdx.select_zero, hdiv]

/-- The test the program makes, on the words of `k < 4096` and `q < 64`, is `k / 64 = q`. -/
theorem group_iff (a b : BitVec 32) (k q : Nat) (ha : a = BitVec.ofNat 32 k) (hb : b = BitVec.ofNat 32 q)
    (hk : k < 4096) (hq : q < 64) : IntOp.cmpi .eq (floorDiv64 a) b = 1#1 ↔ k / 64 = q := by
  subst ha hb
  rw [StableHlo.Predicate.cmpi_eq_iff, floorDiv64_ofNat k hk]
  constructor
  · intro h
    have := congrArg BitVec.toNat h
    rw [BitVec.toNat_ofNat, BitVec.toNat_ofNat] at this
    omega
  · intro h; rw [h]

end Cert.Retrieval.Words
-- ==== Proof.Region2.lean ====
/-
  The pooling call: what its output array holds once every grid point has written its block back.

  Grid point `t` (of 8) loads the 2048 projected rows of items `8 t … 8 t + 7` of the first batch (256 rows an item)
  and all 4096 projected rows of the second batch. It multiplies the former by the transpose of the latter, views the
  `[2048, 4096]` product as `[8, 256, 4096]` and takes, for each item `p` and each row `k` of the second batch, the
  maximum over the item's 256 rows; then it multiplies that `[8, 4096]` matrix by a `[4096, 64]` table of weights built
  from two index vectors: `1/64` where the group `k / 64` of the row equals the column, zero elsewhere. So the block's
  entry `(p, q)` is the weighted sum `pooledAt` of item `8 t + p` against item `q`, and the eight blocks tile the
  `[64, 64]` array.
-/
import proofs.«177391_j15281493639180_1_alg».proof.Proof.Gen.KernelIdeal.Frame
import proofs.«177391_j15281493639180_1_alg».proof.Proof.Spec
import proofs.«177391_j15281493639180_1_alg».proof.Proof.Words
import proofs.«177391_j15281493639180_1_alg».proof.Proof.LibPlainDot
import Idealize.ShloMosaic.Lib.Pipeline.Value
import Idealize.ShloMosaic.Lib.ValueLayout

set_option maxRecDepth 16384

noncomputable section

namespace Cert.KernelIdeal.Region2

open Cert.KernelIdeal Cert.KernelIdeal.Gen Cert.DenseLayer Cert.Retrieval Cert.Retrieval.Words
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row `l` of the `p`-th loaded item, among the 2048 loaded rows. -/
def brow (p : Fin 8) (l : Fin 256) : Fin 2048 := ⟨p.val * 256 + l.val, by have := p.isLt; have := l.isLt; omega⟩

/-! ## The table of weights -/

/-- The `[4096, 64]` table as the program builds it: the row index's floor quotient by 64 compared with the column
    index, selecting between the words of `1/64` and of zero. -/
def weightTable : FVec Ideal S4096x64 .f32 :=
  select
    (fun i => IntOp.cmpi .eq (floorDiv64 (iota .tc S4096x64 32 [0] iota_S4096x64_d0_w32 i))
      (iota .tc S4096x64 32 [1] iota_S4096x64_d1_w32 i))
    (broadcast S4096x64 (Scalar.ofBits (F := Ideal) .f32 0x3C800000#32))
    (broadcast S4096x64 (Scalar.ofBits (F := Ideal) .f32 0x00000000#32))

/-- Its entry `(k, q)` is the weight of row `k` in the mean of group `q`. -/
theorem weightTable_apply (k : Fin 4096) (q : Fin 64) : weightTable (ix2 k q) = weight k q := by
  show Scalar.select (IntOp.cmpi .eq (floorDiv64 (iota .tc S4096x64 32 [0] iota_S4096x64_d0_w32 (ix2 k q)))
      (iota .tc S4096x64 32 [1] iota_S4096x64_d1_w32 (ix2 k q)))
    (Ideal.ofBits .f32 0x3C800000#32) (Ideal.ofBits .f32 0x00000000#32) = _
  rw [iota_single_apply, iota_single_apply]
  have hg := group_iff (BitVec.ofNat 32 k.val) (BitVec.ofNat 32 q.val) k.val q.val rfl rfl k.isLt q.isLt
  unfold weight
  by_cases h : k.val / 64 = q.val
  · rw [if_pos h]
    exact (congrArg (fun b => Scalar.select b _ _) (hg.mpr h)).trans (select_one _ _)
  · rw [if_neg h]
    exact (congrArg (fun b => Scalar.select b _ _) (eq_zero_of_ne_one fun hb => h (hg.mp hb))).trans (select_zero _ _)

/-! ## The maxima over an item's rows -/

/-- A `[2048, 4096]` matrix viewed as `[8, 256, 4096]` and reduced by the maximum over its middle axis: at `(p, k)`
    the maximum, from `-∞`, of column `k` over the 256 rows of item `p`. -/
theorem maxRows_apply (z : FVec Ideal S2048x4096 .f32) (p : Fin 8) (k : Fin 4096) :
    multiReduction .maximumf [1] S8x4096 (shapeCast S8x256x4096 z shapeCasts_S2048x4096_S8x256x4096) 0xFF800000#32
        reduces_S8x256x4096_S8x4096 (.inl rfl) rfl (ix2 p k)
      = (Finset.univ : Finset (Fin 256)).fold max (Ideal.ofBits .f32 0xFF800000#32) (fun l => z (ix2 (brow p l) k)) := by
  refine (Ideal.multiReduction_maximumf_single _ _ reduces_S8x256x4096_S8x4096 _ _ (ix2 p k)).trans ?_
  refine congrArg (fun f : Fin 256 → EReal => (Finset.univ : Finset (Fin 256)).fold max (Ideal.ofBits .f32 0xFF800000#32) f)
    (funext fun (l : Fin 256) => ?_)
  show shapeCast S8x256x4096 z shapeCasts_S2048x4096_S8x256x4096 (reduces_S8x256x4096_S8x4096.lift (ix2 p k) l) = _
  refine shapeCast_apply z _ _ (ix2 (brow p l) k) ?_
  rw [Shape.rowMajor_val_two, Shape.rowMajor_val_three]
  rfl

/-! ## The body's arithmetic -/

/-- The body's result at `(p, q)`: over every row `k` of the second batch, the best match of row `k` among the rows
    of the `p`-th loaded item, times the weight of `k` in group `q`. -/
theorem pay_apply (x0 : Vec Ideal S2048x200 .bf16) (x1 : Vec Ideal S4096x200 .bf16) (p : Fin 8) (q : Fin 64) :
    k2_pay1 (F := Ideal) x0 x1 (ix2 p q)
      = ∑ k : Fin 4096, ((Finset.univ : Finset (Fin 256)).fold max (Ideal.ofBits .f32 0xFF800000#32)
          (fun l => ∑ e : Fin 200, x0 (ix2 (brow p l) e) * x1 (ix2 k e))) * weight k q := by
  unfold k2_pay1
  simp only [shapeCast_self]
  show FloatOps.matmul (F := Ideal) dot_S8x4096_S4096x64_S8x64_1_0_0_1_n_n none
      (multiReduction .maximumf [1] S8x4096
        (shapeCast S8x256x4096
          (matmul dot_S2048x200_S200x4096_S2048x4096_1_0_0_1_n_n none (x0 : FVec Ideal S2048x200 .bf16)
            (transpose S200x4096 [1, 0] (x1 : FVec Ideal S4096x200 .bf16) transposes_S4096x200_p1_0_S200x4096)
            (constant S2048x4096 .f32 0x00000000#32))
          shapeCasts_S2048x4096_S8x256x4096) 0xFF800000#32 reduces_S8x256x4096_S8x4096 (.inl rfl) rfl)
      weightTable (constant S8x64 .f32 0x00000000#32) (ix2 p q) = _
  rw [matmul_zero_apply (plainDot_of_axes _ rfl rfl rfl rfl rfl rfl)]
  unfold prodRow
  refine Finset.sum_congr rfl fun k _ => ?_
  rw [weightTable_apply, maxRows_apply]
  refine congrArg (· * _) (congrArg (fun f : Fin 256 → EReal =>
    (Finset.univ : Finset (Fin 256)).fold max (Ideal.ofBits .f32 0xFF800000#32) f) (funext fun l => ?_))
  show FloatOps.matmul (F := Ideal) dot_S2048x200_S200x4096_S2048x4096_1_0_0_1_n_n none (x0 : FVec Ideal S2048x200 .bf16)
      (transpose S200x4096 [1, 0] (x1 : FVec Ideal S4096x200 .bf16) transposes_S4096x200_p1_0_S200x4096)
      (constant S2048x4096 .f32 0x00000000#32) (ix2 (brow p l) k) = _
  rw [matmul_zero_apply (plainDot_of_axes _ rfl rfl rfl rfl rfl rfl)]
  unfold prodRow
  refine Finset.sum_congr rfl fun e _ => ?_
  rw [transpose_ix2_apply]

/-- The same entry as a score of whole arrays that agree with the loaded blocks where the entry reads them. -/
theorem block_entry (x0 : Vec Ideal S2048x200 .bf16) (x1 : Vec Ideal S4096x200 .bf16)
    (xp : Mat 16384 200) (yp : Mat 4096 200) (p : Fin 8) (q : Fin 64) (i : Fin 64)
    (h0 : ∀ (l : Fin 256) (e : Fin 200), x0 (ix2 (brow p l) e) = xp (ix2 (xrow i l) e))
    (h1 : ∀ (k : Fin 4096) (e : Fin 200), x1 (ix2 k e) = yp (ix2 k e)) :
    k2_pay1 (F := Ideal) x0 x1 (ix2 p q) = pooled xp yp (ix2 i q) := by
  rw [pay_apply, pooled_apply]
  unfold pooledAt best sim
  refine Finset.sum_congr rfl fun k _ => congrArg (· * _) (congrArg (fun f : Fin 256 → EReal =>
    (Finset.univ : Finset (Fin 256)).fold max (Ideal.ofBits .f32 0xFF800000#32) f) (funext fun (l : Fin 256) => ?_))
  refine Finset.sum_congr rfl fun e _ => ?_
  rw [h0 l e, h1 k e]

/-! ## From the blocks to the array -/

section Array

variable (V : (c : Dev nD) → (b : Ref sig .tc) → Buf (Elt Ideal) ((c : Thread nD τ).loc b))

/-- The two arrays the call reads, as the region finds them, at their literal types. -/
abbrev firstIn (c : Dev nD) : Vec Ideal S16384x200 .bf16 := V c main_v4
abbrev secondIn (c : Dev nD) : Vec Ideal S4096x200 .bf16 := V c main_v5

/-- The printed index maps over the grid: the first batch's window and the output window move with the point, the
    second batch's stays at block zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scores of the whole arrays. -/
theorem flushed_eq (c : Dev nD) (t : Fin cfg2.N) :
    (dat2 V c).flushed 2 t = ((cfg2.win 2).blk t).view.read (Elt Ideal) (pooled (firstIn V c) (secondIn V c)) := by
  show (cfg2.win 2).cut (grid2.coords t) ((dat2 V c).after 2 t) = _
  rw [after2_2]
  unfold out2_2
  rw [View.canon_unit_zero hz]
  simp only [View.ld_unit_zero (S := S2048x200) hz, View.ld_unit_zero (S := S4096x200) hz]
  obtain ⟨e00, e01, e10, e11, e20, e21⟩ := idx_facts t
  have ht : t.val < 8 := Nat.lt_of_lt_of_eq t.isLt N_2
  funext j
  have hj0 : (j 0).val < 8 := (j 0).isLt
  have hj1 : (j 1).val < 64 := (j 1).isLt
  have e1 : (cfg2.win 2).xinj (grid2.coords t) j = ix2 (⟨(j 0).val, hj0⟩ : Fin 8) (⟨(j 1).val, hj1⟩ : Fin 64) :=
    funext fun a => Fin.ext (by match a with | ⟨0, _⟩ => rfl | ⟨1, _⟩ => rfl)
  have e2 : ((cfg2.win 2).blk t).view.emb j
      = ix2 (⟨t.val * 8 + (j 0).val, by omega⟩ : Fin 64) (⟨(j 1).val, hj1⟩ : Fin 64) :=
    funext fun a => Fin.ext (by
      match a with
      | ⟨0, _⟩ => show win2_2.index t (0 : Fin 2) * 8 + 1 * (j 0).val = t.val * 8 + (j 0).val; omega
      | ⟨1, _⟩ => show win2_2.index t (1 : Fin 2) * 64 + 1 * (j 1).val = (j 1).val; omega)
  show k2_pay1 (iblk2 V c 0 t) (iblk2 V c 1 t) ((cfg2.win 2).xinj (grid2.coords t) j)
    = pooled (firstIn V c) (secondIn V c) (((cfg2.win 2).blk t).view.emb j)
  rw [e1, e2]
  refine block_entry (iblk2 V c 0 t) (iblk2 V c 1 t) (firstIn V c) (secondIn V c) _ _ _ (fun l e => ?_) (fun k e => ?_)
  · show V c main_v4 (((cfg2.win 0).blk t).view.emb (ix2 (brow (⟨(j 0).val, hj0⟩ : Fin 8) l) e)) = V c main_v4 _
    refine congrArg _ (funext fun a => Fin.ext ?_)
    have hl := l.isLt
    match a with
    | ⟨0, _⟩ =>
      show win2_0.index t (0 : Fin 2) * 2048 + 1 * ((j 0).val * 256 + l.val) = (t.val * 8 + (j 0).val) * 256 + l.val
      omega
    | ⟨1, _⟩ => show win2_0.index t (1 : Fin 2) * 200 + 1 * e.val = e.val; omega
  · show V c main_v5 (((cfg2.win 1).blk t).view.emb (ix2 k e)) = V c main_v5 _
    refine congrArg _ (funext fun a => Fin.ext ?_)
    match a with
    | ⟨0, _⟩ => show win2_1.index t (0 : Fin 2) * 4096 + 1 * k.val = k.val; omega
    | ⟨1, _⟩ => show win2_1.index t (1 : Fin 2) * 200 + 1 * e.val = e.val; omega

/-- An index of the array is in point `t`'s block iff each coordinate is in the block's range on its axis. -/
theorem mem_blk (t : Fin cfg2.N) (i : S64x64.Idx) :
    i ∈ ((cfg2.win 2).blk t).view.set ↔ ∀ a : Fin 2, win2_2.index t a * S8x64.size a ≤ (i a).val
      ∧ (i a).val < win2_2.index t a * S8x64.size a + S8x64.size a := by
  show i ∈ ((View.whole main_v6).slice (win2_2.rect t)).set ↔ _
  rw [View.set_slice_whole, Rect.mem_set_unit]
  exact Iff.rfl

/-- The eight blocks tile the array: row `i` lies in the block of point `i / 8`. -/
theorem cover (i : S64x64.Idx) :
    ∃ t : Fin cfg2.N, (cfg2.win 2).flush t = true ∧ i ∈ ((cfg2.win 2).blk t).view.set := by
  have hi0 : (i 0).val < 64 := (i 0).isLt
  have hi1 : (i 1).val < 64 := (i 1).isLt
  let t : Fin cfg2.N := ⟨(i 0).val / 8, by rw [show cfg2.N = 8 from N_2]; omega⟩
  obtain ⟨e00, e01, e10, e11, e20, e21⟩ := idx_facts t
  have e20' : win2_2.index t (0 : Fin 2) = (i 0).val / 8 := e20
  refine ⟨t, flush2_2 t, ?_⟩
  rw [mem_blk]
  intro a
  match a with
  | ⟨0, _⟩ =>
    show win2_2.index t (0 : Fin 2) * 8 ≤ (i 0).val ∧ (i 0).val < win2_2.index t (0 : Fin 2) * 8 + 8
    omega
  | ⟨1, _⟩ =>
    show win2_2.index t (1 : Fin 2) * 64 ≤ (i 1).val ∧ (i 1).val < win2_2.index t (1 : Fin 2) * 64 + 64
    omega

/-- The output array after the call is the matrix of scores of the two arrays the call reads. -/
theorem final (c : Dev nD) : (dat2 V c).arrAt 2 cfg2.N = pooled (firstIn V c) (secondIn V c) :=
  (dat2 V c).arrAt_eq_of_cover 2 (pooled (firstIn V c) (secondIn V c)) (fun t _ => flushed_eq V c t) cover

end Array

end Cert.KernelIdeal.Region2

end
-- ==== Proof.KernelValue.lean ====
/-
  The kernel's result array as one function of the four inputs.

  The run leaves the result at the contents the last call's write-backs leave. Walking back through the three calls:
  the pooling call writes the scores of its two input arrays; those are what the two projection calls wrote, each the
  projection of the arrays it read; and those were written before the first call by the host operations: the two
  batches reshaped to the matrices of their rows, the weights transposed, the bias reshaped to a row. An array a call
  only reads is left as it found it, and a call does not touch the arrays that are not its own.
-/
import proofs.«177391_j15281493639180_1_alg».proof.Proof.KernelRun
import proofs.«177391_j15281493639180_1_alg».proof.Proof.Region0
import proofs.«177391_j15281493639180_1_alg».proof.Proof.Region1
import proofs.«177391_j15281493639180_1_alg».proof.Proof.Region2
import Idealize.ShloMosaic.Lib.StableHlo.Run

set_option maxRecDepth 16384

noncomputable section

namespace Cert.KernelIdeal.Scores

open Cert.KernelIdeal Cert.KernelIdeal.Gen Cert.DenseLayer Cert.Retrieval
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the host operations leave before the first call -/

/-- The first batch as the matrix of its rows. -/
abbrev rows0 (c : Dev nD) : Vec Ideal S16384x512 .f32 :=
  shapeCast S16384x512 (m ((c : Thread nD τ).loc main_arg0)) shapeCasts_S64x256x512_S16384x512
/-- The second batch as the matrix of its rows. -/
abbrev rows1 (c : Dev nD) : Vec Ideal S4096x512 .f32 :=
  shapeCast S4096x512 (m ((c : Thread nD τ).loc main_arg1)) shapeCasts_S64x64x512_S4096x512
/-- The weights transposed. -/
abbrev weightsT (c : Dev nD) : Vec Ideal S512x200 .f32 :=
  transpose S512x200 [1, 0] (m ((c : Thread nD τ).loc main_arg2)) transposes_S200x512_S512x200_1_0
/-- The bias as a row. -/
abbrev biasRow (c : Dev nD) : Vec Ideal S1x200 .f32 :=
  shapeCast S1x200 (m ((c : Thread nD τ).loc main_arg3)) shapeCasts_S200_S1x200

theorem entry_rows0 (c : Dev nD) : (V1 m ρ c main_v0 : Vec Ideal S16384x512 .f32) = rows0 m c := by
  show StableHlo.after hostOps0 (W0 m ρ c) (Proc.devRef .tc main_v0) = _
  after_results
  rfl
theorem entry_rows1 (c : Dev nD) : (V1 m ρ c main_v1 : Vec Ideal S4096x512 .f32) = rows1 m c := by
  show StableHlo.after hostOps0 (W0 m ρ c) (Proc.devRef .tc main_v1) = _
  after_results
  rfl
theorem entry_weightsT (c : Dev nD) : (V1 m ρ c main_v2 : Vec Ideal S512x200 .f32) = weightsT m c := by
  show StableHlo.after hostOps0 (W0 m ρ c) (Proc.devRef .tc main_v2) = _
  after_results
theorem entry_biasRow (c : Dev nD) : (V1 m ρ c main_v3 : Vec Ideal S1x200 .f32) = biasRow m c := by
  show StableHlo.after hostOps0 (W0 m ρ c) (Proc.devRef .tc main_v3) = _
  after_results
  rfl

/-! ## Through the calls -/

/-- The first projection call leaves the weights and the bias row as it found them. -/
theorem after0_weightsT (c : Dev nD) : (V2 m ρ c main_v2 : Vec Ideal S512x200 .f32) = weightsT m c :=
  ((W2_arr m ρ c 1).trans ((dat0 (V1 m ρ) c).arrAt_in 1 rfl cfg0.N)).trans (entry_weightsT m ρ c)
theorem after0_biasRow (c : Dev nD) : (V2 m ρ c main_v3 : Vec Ideal S1x200 .f32) = biasRow m c :=
  ((W2_arr m ρ c 2).trans ((dat0 (V1 m ρ) c).arrAt_in 2 rfl cfg0.N)).trans (entry_biasRow m ρ c)
/-- It does not touch the second batch's rows. -/
theorem after0_rows1 (c : Dev nD) : (V2 m ρ c main_v1 : Vec Ideal S4096x512 .f32) = rows1 m c :=
  (W2_of_ne m ρ c main_v1 (by decide)).trans (entry_rows1 m ρ c)

/-- The first projected batch, as the pooling call finds it. -/
theorem first_projected (c : Dev nD) :
    (V3 m ρ c main_v4 : Vec Ideal S16384x200 .bf16) = project (rows0 m c) (weightsT m c) (biasRow m c) := by
  refine ((W3_of_ne m ρ c main_v4 (by decide)).trans (W2_arr m ρ c 3)).trans ?_
  refine (Region0.final (V1 m ρ) c).trans ?_
  show project (V1 m ρ c main_v0 : Vec Ideal S16384x512 .f32) (V1 m ρ c main_v2 : Vec Ideal S512x200 .f32)
    (V1 m ρ c main_v3 : Vec Ideal S1x200 .f32) = _
  rw [entry_rows0, entry_weightsT, entry_biasRow]

/-- The second projected batch, as the pooling call finds it. -/
theorem second_projected (c : Dev nD) :
    (V3 m ρ c main_v5 : Vec Ideal S4096x200 .bf16) = project (rows1 m c) (weightsT m c) (biasRow m c) := by
  refine (W3_arr m ρ c 3).trans ?_
  refine (Region1.final (V2 m ρ) c).trans ?_
  show project (V2 m ρ c main_v1 : Vec Ideal S4096x512 .f32) (V2 m ρ c main_v2 : Vec Ideal S512x200 .f32)
    (V2 m ρ c main_v3 : Vec Ideal S1x200 .f32) = _
  rw [after0_rows1, after0_weightsT, after0_biasRow]

/-- The result array at the end of the run: the scores of the two projected batches. -/
theorem result_eq (c : Dev nD) :
    (W4 m ρ c (Proc.devRef .tc main_v6) : Vec Ideal S64x64 .f32)
      = pooled (project (rows0 m c) (weightsT m c) (biasRow m c)) (project (rows1 m c) (weightsT m c) (biasRow m c)) := by
  refine (W4_arr m ρ c 2).trans ?_
  refine (Region2.final (V3 m ρ) c).trans ?_
  show pooled (V3 m ρ c main_v4 : Vec Ideal S16384x200 .bf16) (V3 m ρ c main_v5 : Vec Ideal S4096x200 .bf16) = _
  rw [first_projected, second_projected]

end Cert.KernelIdeal.Scores

end
-- ==== Proof.Batches.lean ====
/-
  A batch of sequences `[items, rows, features]` read as the matrix `[items · rows, features]` of all its rows.

  Row `l` of item `i` is row `i · rows + l` of the flattened matrix; `flatX` (256 rows an item) and `flatY` (64 rows
  an item) read a batch that way, entry by entry, and at the flattened row of `(i, l)` they return the batch's
  entry at `(i, l, ·)`.
-/
import proofs.«177391_j15281493639180_1_alg».proof.Proof.Spec

noncomputable section

namespace Cert.Retrieval

open Idealize.ShloMosaic Idealize.ShloMosaic.ValueIdx Cert.DenseLayer

/-- A `[p, q, r]` array of extended reals, indexed as the arrays are. -/
abbrev Cube (p q r : ℕ) : Type := (⟨3, ![p, q, r]⟩ : Shape).Idx → EReal

/-- The first batch's rows, flattened: row `r` is row `r % 256` of item `r / 256`. -/
def flatX {n : ℕ} (v : Cube 64 256 n) : Mat 16384 n := fun i =>
  have h : (i 0).val < 16384 := (i 0).isLt
  v (ix3 (⟨(i 0).val / 256, by omega⟩ : Fin 64) (⟨(i 0).val % 256, by omega⟩ : Fin 256) (i 1))

/-- The second batch's rows, flattened: row `r` is row `r % 64` of item `r / 64`. -/
def flatY {n : ℕ} (v : Cube 64 64 n) : Mat 4096 n := fun i =>
  have h : (i 0).val < 4096 := (i 0).isLt
  v (ix3 (⟨(i 0).val / 64, by omega⟩ : Fin 64) (⟨(i 0).val % 64, by omega⟩ : Fin 64) (i 1))

theorem flatX_xrow {n : ℕ} (v : Cube 64 256 n) (i : Fin 64) (l : Fin 256) (e : Fin n) :
    flatX v (ix2 (xrow i l) e) = v (ix3 i l e) := by
  unfold flatX
  have hi := i.isLt
  have hl := l.isLt
  refine congrArg v (funext fun a => Fin.ext ?_)
  match a with
  | ⟨0, _⟩ => show (i.val * 256 + l.val) / 256 = i.val; omega
  | ⟨1, _⟩ => show (i.val * 256 + l.val) % 256 = l.val; omega
  | ⟨2, _⟩ => rfl

theorem flatY_ycol {n : ℕ} (v : Cube 64 64 n) (j : Fin 64) (t : Fin 64) (e : Fin n) :
    flatY v (ix2 (ycol j t) e) = v (ix3 j t e) := by
  unfold flatY
  have hj := j.isLt
  have ht := t.isLt
  refine congrArg v (funext fun a => Fin.ext ?_)
  match a with
  | ⟨0, _⟩ => show (j.val * 64 + t.val) / 64 = j.val; omega
  | ⟨1, _⟩ => show (j.val * 64 + t.val) % 64 = t.val; omega
  | ⟨2, _⟩ => rfl

/-- Every row of the flattened second batch is the row of some item. -/
theorem ycol_div_mod (k : Fin 4096) :
    k = ycol (⟨k.val / 64, by have := k.isLt; omega⟩ : Fin 64) (⟨k.val % 64, Nat.mod_lt _ (by decide)⟩ : Fin 64) := by
  apply Fin.ext
  show k.val = k.val / 64 * 64 + k.val % 64
  omega

end Cert.Retrieval

end
-- ==== Proof.Bridge.lean ====
/-
  The kernel's projected batches are the reference's.

  The kernel flattens a batch `[64, rows, 512]` to the matrix of its rows by a reshape, transposes the weights to
  `[512, 200]`, reshapes the bias to a row `[1, 200]`, and computes `x · wᵀ + b` on matrices. The reference contracts
  the batch's last axis against the weights' last axis and adds the bias broadcast over the two leading axes. Entry
  by entry these are one sum: row `r` of the flattened batch is row `r % rows` of item `r / rows`, the transposed
  weights at `(d, e)` are the weights at `(e, d)`, the bias row at `(0, e)` is the bias at `e`. So the kernel's
  projected matrix is the reference's projected batch, flattened.
-/
import proofs.«177391_j15281493639180_1_alg».proof.Proof.Gen.ReferenceIdeal.Read
import proofs.«177391_j15281493639180_1_alg».proof.Proof.Batches
import Idealize.ShloMosaic.Lib.Pipeline.Value
import Idealize.ShloMosaic.Lib.ValueLayout

noncomputable section

namespace Cert.Retrieval.Bridge

open Cert.ReferenceIdeal Cert.ReferenceIdeal.Gen Cert.ReferenceIdeal.Read Cert.Retrieval Cert.DenseLayer
open Idealize.ShloMosaic Idealize.ShloMosaic.ValueIdx

/-- A vector `[n]` reshaped to the row `[1, n]` reads, at `(0, q)`, the vector at `q`. -/
theorem row_of_vector {n : ℕ} (v : (⟨1, ![n]⟩ : Shape).Idx → EReal) (h : (⟨1, ![n]⟩ : Shape).ShapeCasts ⟨2, ![1, n]⟩)
    (q : Fin n) : shapeCast ⟨2, ![1, n]⟩ v h (ix2 (0 : Fin 1) q) = v (ix1 q) :=
  shapeCast_apply v h _ _ (by
    rw [Shape.rowMajor_val_two, Shape.rowMajor_val_one]
    show q.val = 0 * n + q.val
    omega)

/-- The first batch: the kernel's projection of the reshaped rows is the reference's projected batch, flattened. -/
theorem first_eq (x0 : (⟨S64x256x512, .f32⟩ : BufTy).Contents (Elt Ideal)) (x2 : (⟨S200x512, .f32⟩ : BufTy).Contents (Elt Ideal))
    (x3 : (⟨S200, .f32⟩ : BufTy).Contents (Elt Ideal))
    (h0 : (⟨3, ![64, 256, 512]⟩ : Shape).ShapeCasts ⟨2, ![16384, 512]⟩)
    (h2 : (⟨2, ![200, 512]⟩ : Shape).Transposes [1, 0] ⟨2, ![512, 200]⟩)
    (h3 : (⟨1, ![200]⟩ : Shape).ShapeCasts ⟨2, ![1, 200]⟩) :
    project (shapeCast ⟨2, ![16384, 512]⟩ x0 h0) (transpose ⟨2, ![512, 200]⟩ [1, 0] x2 h2) (shapeCast ⟨2, ![1, 200]⟩ x3 h3)
      = flatX (val_main_v3 (F := Ideal) x0 x2 x3) := by
  funext i
  obtain ⟨r, e, rfl⟩ : ∃ (r : Fin 16384) (e : Fin 200), i = ix2 r e := ⟨i 0, i 1, eq_ix2 i⟩
  have hr := r.isLt
  rw [project_apply]
  unfold flatX prodRow
  show _ = val_main_v3 (F := Ideal) x0 x2 x3 (ix3 (⟨r.val / 256, by omega⟩ : Fin 64) (⟨r.val % 256, by omega⟩ : Fin 256) e)
  rw [val_main_v3_apply, val_main_v0_apply, val_main_v2_apply, val_main_v1_apply, row_of_vector]
  refine congrArg₂ (· + ·) (Finset.sum_congr rfl fun d _ => ?_) (congrArg x3 (funext fun a => Fin.ext (by
    match a with | ⟨0, _⟩ => rfl)))
  rw [transpose_ix2_apply]
  refine congrArg₂ (· * ·) ?_ (congrArg x2 (funext fun a => Fin.ext (by
    match a with | ⟨0, _⟩ => rfl | ⟨1, _⟩ => rfl)))
  refine (shapeCast_apply x0 h0 _ (ix3 (⟨r.val / 256, by omega⟩ : Fin 64) (⟨r.val % 256, by omega⟩ : Fin 256) d) ?_).trans
    (congrArg x0 (funext fun a => Fin.ext (by match a with | ⟨0, _⟩ => rfl | ⟨1, _⟩ => rfl | ⟨2, _⟩ => rfl)))
  rw [Shape.rowMajor_val_two, Shape.rowMajor_val_three]
  show (r.val / 256 * 256 + r.val % 256) * 512 + d.val = r.val * 512 + d.val
  have : r.val / 256 * 256 + r.val % 256 = r.val := by omega
  rw [this]

/-- The second batch likewise. -/
theorem second_eq (x1 : (⟨S64x64x512, .f32⟩ : BufTy).Contents (Elt Ideal)) (x2 : (⟨S200x512, .f32⟩ : BufTy).Contents (Elt Ideal))
    (x3 : (⟨S200, .f32⟩ : BufTy).Contents (Elt Ideal))
    (h1 : (⟨3, ![64, 64, 512]⟩ : Shape).ShapeCasts ⟨2, ![4096, 512]⟩)
    (h2 : (⟨2, ![200, 512]⟩ : Shape).Transposes [1, 0] ⟨2, ![512, 200]⟩)
    (h3 : (⟨1, ![200]⟩ : Shape).ShapeCasts ⟨2, ![1, 200]⟩) :
    project (shapeCast ⟨2, ![4096, 512]⟩ x1 h1) (transpose ⟨2, ![512, 200]⟩ [1, 0] x2 h2) (shapeCast ⟨2, ![1, 200]⟩ x3 h3)
      = flatY (val_main_v7 (F := Ideal) x1 x2 x3) := by
  funext i
  obtain ⟨r, e, rfl⟩ : ∃ (r : Fin 4096) (e : Fin 200), i = ix2 r e := ⟨i 0, i 1, eq_ix2 i⟩
  have hr := r.isLt
  rw [project_apply]
  unfold flatY prodRow
  show _ = val_main_v7 (F := Ideal) x1 x2 x3 (ix3 (⟨r.val / 64, by omega⟩ : Fin 64) (⟨r.val % 64, by omega⟩ : Fin 64) e)
  rw [val_main_v7_apply, val_main_v4_apply, val_main_v6_apply, val_main_v5_apply, row_of_vector]
  refine congrArg₂ (· + ·) (Finset.sum_congr rfl fun d _ => ?_) (congrArg x3 (funext fun a => Fin.ext (by
    match a with | ⟨0, _⟩ => rfl)))
  rw [transpose_ix2_apply]
  refine congrArg₂ (· * ·) ?_ (congrArg x2 (funext fun a => Fin.ext (by
    match a with | ⟨0, _⟩ => rfl | ⟨1, _⟩ => rfl)))
  refine (shapeCast_apply x1 h1 _ (ix3 (⟨r.val / 64, by omega⟩ : Fin 64) (⟨r.val % 64, by omega⟩ : Fin 64) d) ?_).trans
    (congrArg x1 (funext fun a => Fin.ext (by match a with | ⟨0, _⟩ => rfl | ⟨1, _⟩ => rfl | ⟨2, _⟩ => rfl)))
  rw [Shape.rowMajor_val_two, Shape.rowMajor_val_three]
  show (r.val / 64 * 64 + r.val % 64) * 512 + d.val = r.val * 512 + d.val
  have : r.val / 64 * 64 + r.val % 64 = r.val := by omega
  rw [this]

end Cert.Retrieval.Bridge

end
-- ==== Proof.Reference.lean ====
/-
  The reference's result, entry by entry: the mean, over the 64 rows of item `j` of the second batch, of the best match
  of each row among the 256 rows of item `i` of the first, where a match is the inner product of the two projected
  rows. Read off the reference's operations one at a time: the division by 64 of the sum over `t` (from zero) of the
  maximum over `l` (from `-∞`) of the transposed four-axis product, whose entry `(j, t, i, l)` is the sum over the 200
  features of the projected second batch at `(j, t, ·)` times the projected first batch at `(i, l, ·)`; the product of
  two extended reals commutes, which puts the factors in the order the scores are written in.
-/
import proofs.«177391_j15281493639180_1_alg».proof.Proof.Gen.ReferenceIdeal.Read
import proofs.«177391_j15281493639180_1_alg».proof.Proof.Batches
import Idealize.ShloMosaic.PureOps.Reduce

noncomputable section

namespace Cert.ReferenceIdeal.Scores

open Cert.ReferenceIdeal Cert.ReferenceIdeal.Gen Cert.ReferenceIdeal.Read Cert.Retrieval Cert.DenseLayer
open Idealize.ShloMosaic Idealize.ShloMosaic.ValueIdx

theorem reduces_rows : S64x64x256x64.Reduces [2] S64x64x64 := by decide

/-- Entry `(i, j)` of the reference's result is the mean score of item `i` against item `j` over the two projected
    batches, each flattened to the matrix of its rows. -/
theorem result_apply (x0 : (⟨S64x256x512, .f32⟩ : BufTy).Contents (Elt Ideal)) (x1 : (⟨S64x64x512, .f32⟩ : BufTy).Contents (Elt Ideal))
    (x2 : (⟨S200x512, .f32⟩ : BufTy).Contents (Elt Ideal)) (x3 : (⟨S200, .f32⟩ : BufTy).Contents (Elt Ideal)) (i j : Fin 64) :
    val_main_v13 (F := Ideal) x0 x1 x2 x3 (ix2 i j)
      = pooledMeanAt (flatX (val_main_v3 (F := Ideal) x0 x2 x3)) (flatY (val_main_v7 (F := Ideal) x1 x2 x3)) i j := by
  rw [val_main_v13_apply, val_main_v11_apply, val_main_v12_apply, val_main_cst_1_apply, val_main_cst_0_apply]
  unfold pooledMeanAt
  show Ideal.div (Ideal.ofBits .f32 0x00000000#32
      + ∑ t : Fin 64, val_main_v10 (F := Ideal) x0 x1 x2 x3 (idx_main_v11 (ix2 i j) t)) (Ideal.ofBits .f32 0x42800000#32) = _
  refine congrArg (fun s => Ideal.div (Ideal.ofBits .f32 0x00000000#32 + s) (Ideal.ofBits .f32 0x42800000#32))
    (Finset.sum_congr rfl fun t _ => ?_)
  unfold val_main_v10 best
  refine (Host.reduce_eq_fold_single (FloatOps.maximumf (F := Ideal) (φ := .f32)) _ _
    reducesTo_S64x64x256x64_S64x64x64_d2 reduces_rows h_S_ _).trans ?_
  refine congrArg (fun f : Fin 256 → EReal => (Finset.univ : Finset (Fin 256)).fold max (Ideal.ofBits .f32 0xFF800000#32) f)
    (funext fun (l : Fin 256) => ?_)
  show val_main_v9 (F := Ideal) x0 x1 x2 x3 (reduces_rows.lift (idx_main_v11 (ix2 i j) t) l) = _
  rw [val_main_v9_apply, val_main_v8_apply]
  unfold sim
  refine Finset.sum_congr rfl fun e _ => ?_
  refine (mul_comm _ _).trans ?_
  rw [flatX_xrow, flatY_ycol]
  exact congrArg₂ (· * ·)
    (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl | ⟨2, _⟩ => rfl)))

end Cert.ReferenceIdeal.Scores

end
-- ==== Proof.Equal.lean ====
/-
  The two programs compute one matrix of scores.

  The kernel's result is the weighted-sum spelling of the mean score over its own projected batches; the reference's is
  the sum-then-divide spelling over its projected batches. The projected batches are the same arrays and the two
  spellings are equal on the extended reals, entry by entry.
-/
import proofs.«177391_j15281493639180_1_alg».proof.Proof.Bridge
import proofs.«177391_j15281493639180_1_alg».proof.Proof.Reference

noncomputable section

namespace Cert.Retrieval.Bridge

open Cert.ReferenceIdeal Cert.ReferenceIdeal.Gen Cert.ReferenceIdeal.Read Cert.Retrieval Cert.DenseLayer
open Idealize.ShloMosaic Idealize.ShloMosaic.ValueIdx

theorem scores_eq (x0 : (⟨S64x256x512, .f32⟩ : BufTy).Contents (Elt Ideal)) (x1 : (⟨S64x64x512, .f32⟩ : BufTy).Contents (Elt Ideal))
    (x2 : (⟨S200x512, .f32⟩ : BufTy).Contents (Elt Ideal)) (x3 : (⟨S200, .f32⟩ : BufTy).Contents (Elt Ideal))
    (h0 : (⟨3, ![64, 256, 512]⟩ : Shape).ShapeCasts ⟨2, ![16384, 512]⟩)
    (h1 : (⟨3, ![64, 64, 512]⟩ : Shape).ShapeCasts ⟨2, ![4096, 512]⟩)
    (h2 : (⟨2, ![200, 512]⟩ : Shape).Transposes [1, 0] ⟨2, ![512, 200]⟩)
    (h3 : (⟨1, ![200]⟩ : Shape).ShapeCasts ⟨2, ![1, 200]⟩) :
    pooled
        (project (shapeCast ⟨2, ![16384, 512]⟩ x0 h0) (transpose ⟨2, ![512, 200]⟩ [1, 0] x2 h2) (shapeCast ⟨2, ![1, 200]⟩ x3 h3))
        (project (shapeCast ⟨2, ![4096, 512]⟩ x1 h1) (transpose ⟨2, ![512, 200]⟩ [1, 0] x2 h2) (shapeCast ⟨2, ![1, 200]⟩ x3 h3))
      = val_main_v13 (F := Ideal) x0 x1 x2 x3 := by
  funext i
  obtain ⟨a, b, rfl⟩ : ∃ (a b : Fin 64), i = ix2 a b := ⟨i 0, i 1, eq_ix2 i⟩
  rw [Cert.ReferenceIdeal.Scores.result_apply, pooled_apply, pooledAt_eq_pooledMeanAt, first_eq, second_eq]

end Cert.Retrieval.Bridge

end
-- ==== Proof.lean ====
/-
  Retrieval scores between a batch of 64 sequences of 256 vectors and a batch of 64 sequences of 64 vectors: every
  vector is projected by one dense layer `v ↦ v · Wᵀ + b` from 512 to 200 features, and the score of item `i` of the
  first batch against item `j` of the second is the mean, over the 64 projected vectors of `j`, of the largest inner
  product with a projected vector of `i`.

  The kernel runs two projection calls (the batches flattened to matrices of rows, the weights transposed on the
  host) and one pooling call that takes the maxima of a `[2048, 4096]` block of inner products and then multiplies by a
  constant `[4096, 64]` table holding `1/64` on each group's own 64 rows and zero elsewhere. The reference contracts the
  unflattened batches, takes the maximum over `l`, sums over `t` and divides by 64.

  At the ideal values the changes of float format are the identity, the projections agree entry by entry (a reshape,
  a transpose and a broadcast only rename indices), the inner products agree by commutativity, and the table product is
  the mean: a product with zero is zero at every extended real, the product with the nonnegative real `1/64` distributes
  over sums of extended reals, and division by 64 is that product. No finiteness of the inputs is used.

  The frames of the two kernel programs are the generated ones; the reference's frame is its generated run with the
  result dropped; the ideal pass rewrote nothing, so `preserves` is trivial.
-/
import proofs.«177391_j15281493639180_1_alg».proof.Defs
import proofs.«177391_j15281493639180_1_alg».proof.Proof.Gen.Kernel
import proofs.«177391_j15281493639180_1_alg».proof.Proof.Gen.Kernel.Skeleton
import proofs.«177391_j15281493639180_1_alg».proof.Proof.Gen.Kernel.Launch
import proofs.«177391_j15281493639180_1_alg».proof.Proof.Gen.Kernel.Points
import proofs.«177391_j15281493639180_1_alg».proof.Proof.Gen.Kernel.Frame
import proofs.«177391_j15281493639180_1_alg».proof.Proof.Gen.KernelIdeal
import proofs.«177391_j15281493639180_1_alg».proof.Proof.Gen.KernelIdeal.Skeleton
import proofs.«177391_j15281493639180_1_alg».proof.Proof.Gen.KernelIdeal.Launch
import proofs.«177391_j15281493639180_1_alg».proof.Proof.Gen.KernelIdeal.Points
import proofs.«177391_j15281493639180_1_alg».proof.Proof.Gen.KernelIdeal.Frame
import proofs.«177391_j15281493639180_1_alg».proof.Proof.Gen.ReferenceIdeal
import proofs.«177391_j15281493639180_1_alg».proof.Proof.Gen.Pre_finite_inputs
import proofs.«177391_j15281493639180_1_alg».proof.Proof.Gen.ReferenceIdeal.Run
import proofs.«177391_j15281493639180_1_alg».proof.Proof.Gen.ReferenceIdeal.Read
import proofs.«177391_j15281493639180_1_alg».proof.Proof.KernelValue
import proofs.«177391_j15281493639180_1_alg».proof.Proof.Equal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the matrix of mean best-match scores of the projected batches: the kernel's run names its
    result as the weighted-sum spelling over its own projections, the reference's run as its operations' term, and the
    two are one function of arguments that agree. -/
theorem algebraic : Cert.algebraic_KernelIdeal_ReferenceIdeal := by
  intro m ρ m' ρ' _ hagree
  refine ⟨fun c => Cert.Retrieval.pooled
      (Cert.Retrieval.project (Cert.KernelIdeal.Scores.rows0 m c) (Cert.KernelIdeal.Scores.weightsT m c) (Cert.KernelIdeal.Scores.biasRow m c))
      (Cert.Retrieval.project (Cert.KernelIdeal.Scores.rows1 m c) (Cert.KernelIdeal.Scores.weightsT m c) (Cert.KernelIdeal.Scores.biasRow m c)),
    ?_, ?_⟩
  · exact (θ_run Cert.KernelIdeal.defs _ _).mono
      (fun r h c => ⟨(h c).1.trans (Cert.KernelIdeal.Scores.result_eq m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v13_eq, (hagree c).1, (hagree c).2.1, (hagree c).2.2.1, (hagree c).2.2.2]
    exact (Cert.Retrieval.Bridge.scores_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
